-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x4096 .f32) (main_arg1 : FVec F S4096x4096 .f32) (main_arg2 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4096x4096 : Shape := ⟨2, ![4096, 4096]⟩
abbrev S4096 : Shape := ⟨1, ![4096]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 5
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S4096x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .f32 = 32 ∨ (Rect.block (s := S4096x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .f32 = 32 ∨ (Rect.block (s := S4096x4096) S1024x1024.size (cc0_transform_3 i) (hinb0_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096 : Shape := ⟨1, ![4096]⟩
abbrev S1x4096 : Shape := ⟨2, ![1, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S1x4096, .f32⟩
  | .hbm, ⟨5, _⟩ => ⟨S4096x4096, .f32⟩
  | .hbm, ⟨6, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  dot_S4096x4096_S4096x4096_S4096x4096_1_1_0_0_n_n_wf : DotDims.WF S4096x4096 S4096x4096 S4096x4096 [1] [1] [0] [0] [] []

variable [Facts₀]

def dot_S4096x4096_S4096x4096_S4096x4096_1_1_0_0_n_n : DotDims S4096x4096 S4096x4096 S4096x4096 where
  lhsContracting := [1]
  rhsContracting := [1]
  lhsNonContracting := [0]
  rhsNonContracting := [0]
  lhsBatch := []
  rhsBatch := []
  wf := dot_S4096x4096_S4096x4096_S4096x4096_1_1_0_0_n_n_wf

class Facts : Prop extends Facts₀ where

variable [Facts]
-- ==== Proof.KernelPieces.lean ====
/-
  What one call of the kernel body leaves behind, case by case.

  The body distinguishes three kinds of grid point by the position along the contraction axis:
  * at the first stretch it overwrites the accumulator with zero and then adds the tile product to it, so the
    accumulator ends at "zero plus the tile product", whatever it held before;
  * at the second and third stretch it adds the tile product to what the accumulator held;
  * at the last stretch it does the same and then stores the accumulator plus the bias row into the output tile.
  Each store covers its whole buffer, so what a buffer holds afterwards is the value of the last store into it, and
  a load that follows a store reads that store's value.
-/
import proofs.«115381_j21251498180722_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

/-- Every access of the body starts at the origin of its buffer. -/
theorem origin : (![0, 0] : Fin 2 → Nat) = fun _ => 0 := funext fun a => by fin_cases a <;> rfl

/-- First stretch: the accumulator ends at the tile product added to the zero tile. -/
theorem scratch_first (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 x1 : Vec F S1024x1024 .f32) (x2 : Vec F S1x1024 .f32) :
    sout0_A_0 c i arg3 harg3 arg4 harg4 arg5 harg5 arg6 harg6 arg7 harg7 hc0 hc1 x0 x1 x2 = k0_pay2 x0 x1 (k0_pay1 (F := F)) := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) origin, View.readCov_unit_zero (S := S1024x1024) _ origin]
  simp only [View.readAt_eq_ld, harg3.read_unread, harg4.read_unread, View.ld_unit_zero (S := S1024x1024) origin]

/-- Middle stretches: the accumulator ends at the tile product added to what it held. -/
theorem scratch_middle (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 x1 : Vec F S1024x1024 .f32) (x2 : Vec F S1x1024 .f32) (xs0 : Vec F S1024x1024 .f32) :
    sout0_B_0 c i arg3 harg3 arg4 harg4 arg5 harg5 arg6 harg6 arg7 harg7 hc0 hc1 x0 x1 x2 xs0 = k0_pay2 x0 x1 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero origin]
  simp only [View.readAt_eq_ld, harg3.read_unread, harg4.read_unread, harg7.read_unread, View.ld_unit_zero (S := S1024x1024) origin]

/-- Last stretch: the accumulator ends at the tile product added to what it held … -/
theorem scratch_last (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 x1 : Vec F S1024x1024 .f32) (x2 : Vec F S1x1024 .f32) (xs0 : Vec F S1024x1024 .f32) :
    sout0_C_0 c i arg3 harg3 arg4 harg4 arg5 harg5 arg6 harg6 arg7 harg7 hc0 hc1 x0 x1 x2 xs0 = k0_pay2 x0 x1 xs0 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero origin]
  simp only [View.readAt_eq_ld, harg3.read_unread, harg4.read_unread, harg7.read_unread, View.ld_unit_zero (S := S1024x1024) origin]

/-- … and the output tile at that accumulator plus the bias row. -/
theorem output_last (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 x1 : Vec F S1024x1024 .f32) (x2 : Vec F S1x1024 .f32) (xs0 : Vec F S1024x1024 .f32) :
    out0_C_3 c i arg3 harg3 arg4 harg4 arg5 harg5 arg6 harg6 arg7 harg7 hc0 hc1 x0 x1 x2 xs0 = k0_pay3 (k0_pay2 x0 x1 xs0) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero origin]
  simp only [View.readAt_eq_ld, harg3.read_unread, harg4.read_unread, harg5.read_unread, harg7.read_unread,
    View.readCov_unit_zero (S := S1024x1024) _ origin, View.ld_unit_zero (S := S1024x1024) origin, View.ld_unit_zero (S := S1x1024) origin]

end Cert.KernelIdeal.Pieces

end
-- ==== Proof.KernelPayload.lean ====
/-
  The kernel body's three stored values, read at an index over the extended reals.

  * the reset stores zero everywhere;
  * the accumulation stores, at (p, q), what the accumulator held there plus the dot product of row p of the input
    tile with row q of the weight tile (both tiles contracted along their second axis; the narrowing of the operands
    to a shorter float format is the identity on extended reals, and the product unit starts from a zero
    accumulator, so it contributes exactly the sum);
  * the final store adds to the accumulator at (p, q) entry q of the bias row, which a broadcast repeats down the
    rows.
-/
import proofs.«115381_j21251498180722_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx
open scoped BigOperators

/-- The tile product's contraction record. -/
abbrev tileDot := dot_S1024x1024_S1024x1024_S1024x1024_1_1_0_0_n_n

theorem lhs_axis0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lhs_axis1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
theorem rhs_axis0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rhs_axis1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The tile product into a zero accumulator, at (p, q): row p of the left tile against row q of the right tile. -/
theorem tile_product_apply (l r : FVec Ideal S1024x1024 .bf16) (p q : Fin 1024) :
    matmul dot_S1024x1024_S1024x1024_S1024x1024_1_1_0_0_n_n none l r (constant S1024x1024 .f32 0x00000000#32) (ix2 p q)
      = ∑ k : Fin 1024, l (ix2 p k) * r (ix2 q k) := by
  simp only [matmul]
  rw [Ideal.matmul_constant_zero_apply, ← Equiv.sum_comp (ValueIdx.contrEquiv1 dot_S1024x1024_S1024x1024_S1024x1024_1_1_0_0_n_n 1024 rfl rfl).symm]
  refine Finset.sum_congr rfl fun k _ => ?_
  have hk := ValueIdx.contrEquiv1_symm_val dot_S1024x1024_S1024x1024_S1024x1024_1_1_0_0_n_n 1024 rfl rfl k
  have el : dot_S1024x1024_S1024x1024_S1024x1024_1_1_0_0_n_n.lhsIdx (ix2 p q) ((ValueIdx.contrEquiv1 dot_S1024x1024_S1024x1024_S1024x1024_1_1_0_0_n_n 1024 rfl rfl).symm k) = ix2 p k := funext fun a => Fin.ext (by
    match a with
    | ⟨0, _⟩ => exact lhs_axis0 _ _
    | ⟨1, _⟩ => exact (lhs_axis1 _ _).trans hk)
  have er : dot_S1024x1024_S1024x1024_S1024x1024_1_1_0_0_n_n.rhsIdx (ix2 p q) ((ValueIdx.contrEquiv1 dot_S1024x1024_S1024x1024_S1024x1024_1_1_0_0_n_n 1024 rfl rfl).symm k) = ix2 q k := funext fun a => Fin.ext (by
    match a with
    | ⟨0, _⟩ => exact rhs_axis0 _ _
    | ⟨1, _⟩ => exact (rhs_axis1 _ _).trans hk)
  rw [el, er]

/-- The reset's value is zero at every index. -/
theorem reset_apply (y : S1024x1024.Idx) : k0_pay1 (F := Ideal) y = 0 := by
  unfold k0_pay1
  rw [shapeCast_self]
  show Ideal.ofBits .f32 0x00000000#32 = 0
  exact Ideal.ofBits_zero_f32

/-- The accumulation's value at (p, q): the accumulator there plus the two tiles' row-by-row dot product. -/
theorem accumulate_apply (xt wt acc : Vec Ideal S1024x1024 .f32) (p q : Fin 1024) :
    k0_pay2 (F := Ideal) xt wt acc (ix2 p q) = acc (ix2 p q) + ∑ k : Fin 1024, xt (ix2 p k) * wt (ix2 q k) := by
  unfold k0_pay2
  rw [shapeCast_self, ValueIdx.addf_apply, tile_product_apply]
  rfl

/-- The final store's value at (p, q): the accumulator there plus entry q of the bias row. -/
theorem add_bias_apply (acc : Vec Ideal S1024x1024 .f32) (brow : Vec Ideal S1x1024 .f32) (p q : Fin 1024) :
    k0_pay3 (F := Ideal) acc brow (ix2 p q) = acc (ix2 p q) + brow (ix2 0 q) := by
  unfold k0_pay3
  rw [shapeCast_self]
  show acc (ix2 p q) + broadcastTo S1024x1024 brow broadcasts_S1x1024_S1024x1024 (ix2 p q) = _
  rw [broadcastTo_apply brow broadcasts_S1x1024_S1024x1024 (ix2 p q) (ix2 0 q) (fun a => by
    match a with
    | ⟨0, _⟩ => show (0 : ℕ) = if (1 : ℕ) = 1 then 0 else _; rw [if_pos rfl]
    | ⟨1, _⟩ => show q.val = if (1024 : ℕ) = 1 then 0 else q.val; rw [if_neg (by decide)])]

end Cert.KernelIdeal.Payload

end
-- ==== Proof.LinearSpec.lean ====
/-
  The function both programs compute: a linear layer over the extended reals.

  For a 4096 x 4096 input matrix, a 4096 x 4096 weight matrix and a bias vector of length 4096, entry (r, c) of the
  result is the dot product of row r of the input with row c of the weights (the weights are contracted along their
  second axis, so no transpose is materialised), plus entry c of the bias.

  The kernel reaches the same number tile by tile. Rows, columns and the contraction axis are each cut into four
  consecutive stretches of 1024. For the tile of rows `a` and columns `b`, an accumulator starts at zero and takes,
  one stretch of the contraction axis after the other, the dot products restricted to that stretch; after the fourth
  stretch the bias is added. The law that joins the two descriptions is the regrouping of a finite sum in a
  commutative monoid (blockwise summation): it holds on the extended reals with no finiteness assumption, because only
  the associativity and commutativity of addition are used, never distributivity or cancellation.
-/
import Idealize.ShloMosaic.PureOps.Ideal
import Idealize.ShloMosaic.Lib.ValueIdx
import Mathlib.Algebra.BigOperators.Fin
import Mathlib.Algebra.BigOperators.Intervals

noncomputable section

namespace Cert.LinearSpec

open Idealize.ShloMosaic Idealize.ShloMosaic.ValueIdx
open scoped BigOperators

/-- The shape of the two matrices and of the result. -/
abbrev SMat : Shape := ⟨2, ![4096, 4096]⟩
/-- The shape of the bias. -/
abbrev SBias : Shape := ⟨1, ![4096]⟩
/-- The shape of one tile of a matrix. -/
abbrev STile : Shape := ⟨2, ![1024, 1024]⟩

/-- Entry (r, c) of the linear layer: the dot product of row r of `x` with row c of `w`, plus `b c`. -/
def linear (x w : Vec Ideal SMat .f32) (b : Vec Ideal SBias .f32) : Vec Ideal SMat .f32 :=
  fun i => (∑ k : Fin 4096, x (ix2 (i 0) k) * w (ix2 (i 1) k)) + b (ix1 (i 1))

/-- The index along an axis of length 4096 made of a stretch number (read modulo four, so that every natural number
    names a stretch) and a position inside the stretch. -/
def kidx (q : ℕ) (p : Fin 1024) : Fin 4096 :=
  ⟨(q % 4) * 1024 + p.val, by have := p.isLt; have := Nat.mod_lt q (show 0 < 4 by norm_num); omega⟩

theorem kidx_val (q : ℕ) (p : Fin 1024) : (kidx q p).val = (q % 4) * 1024 + p.val := rfl

/-- A stretch number and a position inside the stretch name each index exactly once. -/
def stretchEquiv : Fin 4 × Fin 1024 ≃ Fin 4096 where
  toFun x := kidx x.1.val x.2
  invFun k := (⟨k.val / 1024, by have := k.isLt; omega⟩, ⟨k.val % 1024, Nat.mod_lt _ (by norm_num)⟩)
  left_inv x := by
    obtain ⟨⟨q, hq⟩, ⟨p, hp⟩⟩ := x
    refine Prod.ext (Fin.ext ?_) (Fin.ext ?_)
    · show ((q % 4) * 1024 + p) / 1024 = q
      omega
    · show ((q % 4) * 1024 + p) % 1024 = p
      omega
  right_inv k := by
    have := k.isLt
    refine Fin.ext ?_
    show ((k.val / 1024) % 4) * 1024 + k.val % 1024 = k.val
    omega

/-- Blockwise summation: a sum over 4096 terms is the sum over the four stretches of the sums inside each. -/
theorem sum_stretches {M : Type*} [AddCommMonoid M] (f : Fin 4096 → M) :
    ∑ k : Fin 4096, f k = ∑ q : Fin 4, ∑ p : Fin 1024, f (kidx q.val p) := by
  rw [← Fintype.sum_prod_type']
  exact (Fintype.sum_equiv stretchEquiv (fun x => f (kidx x.1.val x.2)) f (fun _ => rfl)).symm

/-- The part of the dot product of row `kidx a r` of `x` with row `kidx b c` of `w` that lies in stretch `q` of the
    contraction axis. -/
def stretchDot (x w : Vec Ideal SMat .f32) (a b q : ℕ) (y : STile.Idx) : EReal :=
  ∑ p : Fin 1024, x (ix2 (kidx a (y 0)) (kidx q p)) * w (ix2 (kidx b (y 1)) (kidx q p))

/-- What the accumulator of tile (a, b) holds after the first `s` stretches: the sum of their partial dot products. -/
def partialDot (x w : Vec Ideal SMat .f32) (a b s : ℕ) : Vec Ideal STile .f32 :=
  fun y => ∑ q ∈ Finset.range s, stretchDot x w a b q y

theorem partialDot_zero (x w : Vec Ideal SMat .f32) (a b : ℕ) (y : STile.Idx) : partialDot x w a b 0 y = 0 :=
  Finset.sum_range_zero _

/-- One more stretch adds its partial dot product. -/
theorem partialDot_succ (x w : Vec Ideal SMat .f32) (a b s : ℕ) (y : STile.Idx) :
    partialDot x w a b (s + 1) y = partialDot x w a b s y + stretchDot x w a b s y :=
  Finset.sum_range_succ _ _

/-- After all four stretches the accumulator holds the whole dot product, and with the bias added the tile's entry is
    the linear layer's. -/
theorem partialDot_four_add_bias (x w : Vec Ideal SMat .f32) (b : Vec Ideal SBias .f32) (a c : ℕ) (y : STile.Idx) :
    partialDot x w a c 4 y + b (ix1 (kidx c (y 1))) = linear x w b (ix2 (kidx a (y 0)) (kidx c (y 1))) := by
  unfold partialDot stretchDot linear
  rw [Finset.sum_range, sum_stretches]

end Cert.LinearSpec

end
-- ==== Proof.KernelValue.lean ====
/-
  The kernel's result array is the linear layer of its arguments.

  The grid has 4 x 4 x 4 points, visited in row-major order: point t works on the tile of rows t / 16 and columns
  (t / 4) mod 4, at stretch t mod 4 of the contraction axis. The input tile it is handed is rows t / 16 and stretch
  t mod 4 of the input matrix; the weight tile is rows (t / 4) mod 4 and stretch t mod 4 of the weight matrix; the
  bias tile is stretch (t / 4) mod 4 of the bias row, which the host made from the bias vector by a reshape.

  By induction on the point, the accumulator after point t holds, at (p, q), the sum over the stretches 0 .. t mod 4
  of the partial dot products of row p of the row tile with row q of the column tile: a point at stretch 0 starts
  from zero, and every other point adds its stretch to what the point before left, which belongs to the same tile.
  At stretch 3 the accumulator holds the whole dot product, the bias is added, and the tile is written back; the
  sixteen tiles written back cover the result array.
-/
import proofs.«115381_j21251498180722_1_alg».proof.Proof.Gen.KernelIdeal.Value
import proofs.«115381_j21251498180722_1_alg».proof.Proof.KernelPieces
import proofs.«115381_j21251498180722_1_alg».proof.Proof.KernelPayload
import proofs.«115381_j21251498180722_1_alg».proof.Proof.LinearSpec
import Idealize.ShloMosaic.Lib.Pipeline.Value
import Idealize.ShloMosaic.Lib.StableHlo.Run

noncomputable section

namespace Cert.KernelIdeal.TileValue

open Cert.KernelIdeal Cert.KernelIdeal.Gen Idealize.ShloMosaic Idealize.ShloMosaic.TcCoe Idealize.SL.Sem
open Idealize.ShloMosaic.ValueIdx Cert.LinearSpec
open Idealize.ShloMosaic.Pipeline (Dat)
open scoped BigOperators

variable (m : (ℓ : Loc nD τ sig) → Buf (Elt Ideal) ℓ) (ρ : Dev nD → PrngReg)

/-! ## The arrays and the tiles, at their literal shapes -/

/-- The input matrix, the weight matrix and the bias row as the region finds them, and the bias vector as launched. -/
abbrev xarr (c : Dev nD) : Vec Ideal S4096x4096 .f32 := V m c main_arg0
abbrev warr (c : Dev nD) : Vec Ideal S4096x4096 .f32 := V m c main_arg1
abbrev brow (c : Dev nD) : Vec Ideal S1x4096 .f32 := V m c main_v0
abbrev bias (c : Dev nD) : Vec Ideal S4096 .f32 := m ((c : Thread nD τ).loc main_arg2)

/-- The tiles point `t` is handed. -/
abbrev xtile (c : Dev nD) (t : Fin cfg0.N) : Vec Ideal S1024x1024 .f32 := iblk m c 0 t
abbrev wtile (c : Dev nD) (t : Fin cfg0.N) : Vec Ideal S1024x1024 .f32 := iblk m c 1 t
abbrev btile (c : Dev nD) (t : Fin cfg0.N) : Vec Ideal S1x1024 .f32 := iblk m c 2 t

/-- Which tile each window is on at point `t`: decided over the 64 points. -/
theorem tile_index : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = 0 ∧ win0_2.index t (1 : Fin 2) = t.val / 4 % 4
    ∧ win0_3.index t (0 : Fin 2) = t.val / 16 ∧ win0_3.index t (1 : Fin 2) = t.val / 4 % 4 :=
  (by decide +kernel : ∀ t : Fin grid0.N, _)

/-- The input tile at (p, r) is the input matrix at row p of row tile t / 16, column r of stretch t mod 4. -/
theorem xtile_apply (c : Dev nD) (t : Fin cfg0.N) (p r : Fin 1024) :
    xtile m c t (ix2 p r) = xarr m c (ix2 (kidx (t.val / 16) p) (kidx (t.val % 4) r)) := by
  have hN : t.val < 64 := lt_of_lt_of_eq t.isLt N_0
  obtain ⟨e0, e1, -⟩ := tile_index t
  show V m c main_arg0 (((cfg0.win 0).blk t).view.emb (ix2 p r)) = V m c main_arg0 _
  refine congrArg _ (funext fun a => Fin.ext ?_)
  match a with
  | ⟨0, _⟩ => show win0_0.index t (0 : Fin 2) * 1024 + 1 * p.val = (t.val / 16 % 4) * 1024 + p.val; rw [e0]; omega
  | ⟨1, _⟩ => show win0_0.index t (1 : Fin 2) * 1024 + 1 * r.val = (t.val % 4 % 4) * 1024 + r.val; rw [e1]; omega

/-- The weight tile at (q, r) is the weight matrix at row q of row tile (t / 4) mod 4, column r of stretch t mod 4. -/
theorem wtile_apply (c : Dev nD) (t : Fin cfg0.N) (q r : Fin 1024) :
    wtile m c t (ix2 q r) = warr m c (ix2 (kidx (t.val / 4) q) (kidx (t.val % 4) r)) := by
  obtain ⟨-, -, e2, e3, -⟩ := tile_index t
  show V m c main_arg1 (((cfg0.win 1).blk t).view.emb (ix2 q r)) = V m c main_arg1 _
  refine congrArg _ (funext fun a => Fin.ext ?_)
  match a with
  | ⟨0, _⟩ => show win0_1.index t (0 : Fin 2) * 1024 + 1 * q.val = (t.val / 4 % 4) * 1024 + q.val; rw [e2]; omega
  | ⟨1, _⟩ => show win0_1.index t (1 : Fin 2) * 1024 + 1 * r.val = (t.val % 4 % 4) * 1024 + r.val; rw [e3]; omega

/-- The bias tile at (0, q) is the bias row at column q of stretch (t / 4) mod 4. -/
theorem btile_apply (c : Dev nD) (t : Fin cfg0.N) (q : Fin 1024) :
    btile m c t (ix2 (0 : Fin 1) q) = brow m c (ix2 (0 : Fin 1) (kidx (t.val / 4) q)) := by
  obtain ⟨-, -, -, -, e4, e5, -⟩ := tile_index t
  show V m c main_v0 (((cfg0.win 2).blk t).view.emb (ix2 (0 : Fin 1) q)) = V m c main_v0 _
  refine congrArg _ (funext fun a => Fin.ext ?_)
  match a with
  | ⟨0, _⟩ => show win0_2.index t (0 : Fin 2) * 1 + 1 * 0 = 0; rw [e4]
  | ⟨1, _⟩ => show win0_2.index t (1 : Fin 2) * 1024 + 1 * q.val = (t.val / 4 % 4) * 1024 + q.val; rw [e5]; omega

/-- The host's reshape lays the bias vector out as a row: entry (0, j) of the row is entry j of the vector. -/
theorem brow_apply (c : Dev nD) (j : Fin 4096) : brow m c (ix2 (0 : Fin 1) j) = bias m c (ix1 j) := by
  have e : (V m c main_v0 : S1x4096.Idx → EReal) = shapeCast S1x4096 (bias m c) shapeCasts_S4096_S1x4096 := by
    dsimp only [V, hostOps0]; after_results; rfl
  show (V m c main_v0 : S1x4096.Idx → EReal) (ix2 (0 : Fin 1) j) = _
  rw [e]
  refine shapeCast_apply _ _ _ (ix1 j) ?_
  rw [Shape.rowMajor_val_one, Shape.rowMajor_val_two]
  show j.val = 0 * 4096 + j.val
  omega

/-- The tile product's sum at point `n` is that point's stretch of the dot product. -/
theorem tile_dot (c : Dev nD) (n : ℕ) (hn : n < cfg0.N) (p q : Fin 1024) :
    (∑ k : Fin 1024, xtile m c (⟨n, hn⟩ : Fin cfg0.N) (ix2 p k) * wtile m c (⟨n, hn⟩ : Fin cfg0.N) (ix2 q k))
      = stretchDot (xarr m c) (warr m c) (n / 16) (n / 4) (n % 4) (ix2 p q) := by
  show _ = ∑ k : Fin 1024, xarr m c (ix2 (kidx (n / 16) p) (kidx (n % 4) k)) * warr m c (ix2 (kidx (n / 4) q) (kidx (n % 4) k))
  refine Finset.sum_congr rfl fun k _ => ?_
  rw [xtile_apply, wtile_apply]

/-! ## What the accumulator and the output tile hold after a point -/

/-- At stretch 0 the accumulator ends at zero plus the tile product. -/
theorem scratch_at_first (c : Dev nD) (n : ℕ) (hn : n < cfg0.N) (h0 : n % 4 = 0) :
    (outsAt0 m c n hn).2 = k0_pay2 (xtile m c (⟨n, hn⟩ : Fin cfg0.N)) (wtile m c (⟨n, hn⟩ : Fin cfg0.N)) (k0_pay1 (F := Ideal)) := by
  have h1 : ¬n % 4 = 3 := by omega
  rw [outsAt0_A m c (⟨n, hn⟩ : Fin cfg0.N) h0 h1]
  dsimp only
  exact Pieces.scratch_first (F := Ideal) c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) scM0_0 (Memref.isWhole_whole _) ((hcond0_0 (⟨n, hn⟩ : Fin cfg0.N)).mpr h0) (fun h => h1 ((hcond0_1 (⟨n, hn⟩ : Fin cfg0.N)).mp h)) (iblk m c 0 (⟨n, hn⟩ : Fin cfg0.N)) (iblk m c 1 (⟨n, hn⟩ : Fin cfg0.N)) (iblk m c 2 (⟨n, hn⟩ : Fin cfg0.N))

/-- At a later stretch the accumulator ends at what the point before left plus the tile product. -/
theorem scratch_at_later (c : Dev nD) (n : ℕ) (hn : n < cfg0.N) (h0 : ¬n % 4 = 0) :
    (outsAt0 m c n hn).2 = k0_pay2 (xtile m c (⟨n, hn⟩ : Fin cfg0.N)) (wtile m c (⟨n, hn⟩ : Fin cfg0.N)) (outsAt0 m c (n - 1) (Nat.lt_of_le_of_lt (Nat.sub_le _ _) hn)).2 := by
  by_cases h1 : n % 4 = 3
  · rw [outsAt0_C m c (⟨n, hn⟩ : Fin cfg0.N) h0 h1]
    dsimp only
    exact Pieces.scratch_last (F := Ideal) c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) scM0_0 (Memref.isWhole_whole _) (fun h => h0 ((hcond0_0 (⟨n, hn⟩ : Fin cfg0.N)).mp h)) ((hcond0_1 (⟨n, hn⟩ : Fin cfg0.N)).mpr h1) (iblk m c 0 (⟨n, hn⟩ : Fin cfg0.N)) (iblk m c 1 (⟨n, hn⟩ : Fin cfg0.N)) (iblk m c 2 (⟨n, hn⟩ : Fin cfg0.N)) (outsAt0 m c (n - 1) (Nat.lt_of_le_of_lt (Nat.sub_le _ _) hn)).2
  · rw [outsAt0_B m c (⟨n, hn⟩ : Fin cfg0.N) h0 h1]
    dsimp only
    exact Pieces.scratch_middle (F := Ideal) c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) scM0_0 (Memref.isWhole_whole _) (fun h => h0 ((hcond0_0 (⟨n, hn⟩ : Fin cfg0.N)).mp h)) (fun h => h1 ((hcond0_1 (⟨n, hn⟩ : Fin cfg0.N)).mp h)) (iblk m c 0 (⟨n, hn⟩ : Fin cfg0.N)) (iblk m c 1 (⟨n, hn⟩ : Fin cfg0.N)) (iblk m c 2 (⟨n, hn⟩ : Fin cfg0.N)) (outsAt0 m c (n - 1) (Nat.lt_of_le_of_lt (Nat.sub_le _ _) hn)).2

/-- At stretch 3 the output tile ends at the new accumulator plus the bias tile. -/
theorem output_at_last (c : Dev nD) (n : ℕ) (hn : n < cfg0.N) (h1 : n % 4 = 3) :
    (outsAt0 m c n hn).1 = k0_pay3 (k0_pay2 (xtile m c (⟨n, hn⟩ : Fin cfg0.N)) (wtile m c (⟨n, hn⟩ : Fin cfg0.N)) (outsAt0 m c (n - 1) (Nat.lt_of_le_of_lt (Nat.sub_le _ _) hn)).2) (btile m c (⟨n, hn⟩ : Fin cfg0.N)) := by
  have h0 : ¬n % 4 = 0 := by omega
  rw [outsAt0_C m c (⟨n, hn⟩ : Fin cfg0.N) h0 h1]
  dsimp only
  exact Pieces.output_last (F := Ideal) c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) scM0_0 (Memref.isWhole_whole _) (fun h => h0 ((hcond0_0 (⟨n, hn⟩ : Fin cfg0.N)).mp h)) ((hcond0_1 (⟨n, hn⟩ : Fin cfg0.N)).mpr h1) (iblk m c 0 (⟨n, hn⟩ : Fin cfg0.N)) (iblk m c 1 (⟨n, hn⟩ : Fin cfg0.N)) (iblk m c 2 (⟨n, hn⟩ : Fin cfg0.N)) (outsAt0 m c (n - 1) (Nat.lt_of_le_of_lt (Nat.sub_le _ _) hn)).2

/-- THE ACCUMULATOR after point `n`: the partial dot products of the stretches 0 .. n mod 4, for the tile of rows
    n / 16 and columns (n / 4) mod 4. -/
theorem scratch_eq (c : Dev nD) (n : ℕ) : ∀ hn : n < cfg0.N,
    (outsAt0 m c n hn).2 = partialDot (xarr m c) (warr m c) (n / 16) (n / 4) (n % 4 + 1) := by
  induction n using Nat.strong_induction_on with
  | _ n ih =>
    intro hn
    have hN : n < 64 := lt_of_lt_of_eq hn N_0
    funext y
    obtain ⟨p, q, rfl⟩ : ∃ (p q : Fin 1024), y = ix2 p q := ⟨y 0, y 1, eq_ix2 y⟩
    by_cases h0 : n % 4 = 0
    · rw [scratch_at_first m c n hn h0, Payload.accumulate_apply, Payload.reset_apply, zero_add, tile_dot m c n hn p q,
        partialDot_succ, h0, partialDot_zero, zero_add]
    · rw [scratch_at_later m c n hn h0, Payload.accumulate_apply, tile_dot m c n hn p q, ih (n - 1) (by omega),
        show (n - 1) / 16 = n / 16 by omega, show (n - 1) / 4 = n / 4 by omega, show (n - 1) % 4 + 1 = n % 4 by omega,
        partialDot_succ]

/-! ## The result array -/

/-- What a point at stretch 3 writes back is its tile of the linear layer. -/
theorem flushed_eq (c : Dev nD) (t : Fin cfg0.N) (hf : (cfg0.win 3).flush t = true) :
    (dats m 0 c).flushed 3 t
      = ((cfg0.win 3).blk t).view.read (Elt Ideal) (linear (xarr m c) (warr m c) (bias m c)) := by
  have h1 : t.val % 4 = 3 := (flush0_3 t).mp hf
  have hN : t.val < 64 := lt_of_lt_of_eq t.isLt N_0
  obtain ⟨-, -, -, -, -, -, e6, e7⟩ := tile_index t
  rw [Value.flushed3]
  funext y
  obtain ⟨p, q, rfl⟩ : ∃ (p q : Fin 1024), y = ix2 p q := ⟨y 0, y 1, eq_ix2 y⟩
  show (outsAt0 m c t.val t.isLt).1 (ix2 p q) = linear (xarr m c) (warr m c) (bias m c) (((cfg0.win 3).blk t).view.emb (ix2 p q))
  have hi : ((cfg0.win 3).blk t).view.emb (ix2 p q) = ix2 (kidx (t.val / 16) p) (kidx (t.val / 4) q) := by
    funext a; apply Fin.ext
    match a with
    | ⟨0, _⟩ => show win0_3.index t (0 : Fin 2) * 1024 + 1 * p.val = (t.val / 16 % 4) * 1024 + p.val; rw [e6]; omega
    | ⟨1, _⟩ => show win0_3.index t (1 : Fin 2) * 1024 + 1 * q.val = (t.val / 4 % 4) * 1024 + q.val; rw [e7]; omega
  rw [hi, output_at_last m c t.val t.isLt h1, Payload.add_bias_apply, Payload.accumulate_apply, tile_dot m c t.val t.isLt p q,
    scratch_eq m c (t.val - 1) (Nat.lt_of_le_of_lt (Nat.sub_le _ _) t.isLt),
    show (t.val - 1) / 16 = t.val / 16 by omega, show (t.val - 1) / 4 = t.val / 4 by omega,
    show (t.val - 1) % 4 + 1 = 3 by omega, ← h1, ← partialDot_succ, h1, btile_apply, brow_apply]
  exact partialDot_four_add_bias (xarr m c) (warr m c) (bias m c) (t.val / 16) (t.val / 4) (ix2 p q)

/-- An index of the result array is in point `t`'s tile iff each coordinate is in the tile's range. -/
theorem mem_tile (t : Fin cfg0.N) (i : S4096x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v1).slice (win0_3.rect t)).set ↔ _
  rw [View.set_slice_whole, Rect.mem_set_unit]
  exact Iff.rfl

/-- Every index of the result array lies in the tile some stretch-3 point writes back. -/
theorem covered (i : S4096x4096.Idx) :
    ∃ t : Fin cfg0.N, (cfg0.win 3).flush t = true ∧ i ∈ ((cfg0.win 3).blk t).view.set := by
  have hi0 : (i 0).val < 4096 := (i 0).isLt
  have hi1 : (i 1).val < 4096 := (i 1).isLt
  have hN : cfg0.N = 64 := N_0
  let t : Fin cfg0.N := ⟨((i 0).val / 1024 * 4 + (i 1).val / 1024) * 4 + 3, by omega⟩
  have ht : t.val = ((i 0).val / 1024 * 4 + (i 1).val / 1024) * 4 + 3 := rfl
  obtain ⟨-, -, -, -, -, -, e6, e7⟩ := tile_index t
  refine ⟨t, (flush0_3 t).mpr (by omega), ?_⟩
  rw [mem_tile]
  intro a
  match a with
  | ⟨0, _⟩ => show win0_3.index t (0 : Fin 2) * 1024 ≤ (i 0).val ∧ (i 0).val < win0_3.index t (0 : Fin 2) * 1024 + 1024; rw [e6]; omega
  | ⟨1, _⟩ => show win0_3.index t (1 : Fin 2) * 1024 ≤ (i 1).val ∧ (i 1).val < win0_3.index t (1 : Fin 2) * 1024 + 1024; rw [e7]; omega

/-- THE RESULT ARRAY after the run: the linear layer of the arrays as the region finds them. -/
theorem final (c : Dev nD) : (dats m 0 c).arrAt 3 cfg0.N = linear (xarr m c) (warr m c) (bias m c) :=
  (dats m 0 c).arrAt_eq_of_cover 3 (linear (xarr m c) (warr m c) (bias m c)) (fun t hf => flushed_eq m c t hf) covered

/-- The run: the result array ends at the linear layer of the arguments as launched, the arguments unchanged. -/
theorem run : θ_run defs (onTc (τ := τ) (main (F := Ideal))) ⟨m, fun _ => 0, ρ⟩ fun r => ∀ c : Dev nD,
      r.2.mem ((c : Thread nD τ).loc main_v1)
        = linear (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((final m c).trans (by
      show linear (V m c main_arg0) (V m c main_arg1) _ = _
      rw [V_main_arg0, V_main_arg1])), (h c).2⟩)
    (Value.run_blocks m ρ)

end Cert.KernelIdeal.TileValue

end
-- ==== Proof.RefValue.lean ====
/-
  The reference computes the linear layer.

  Read one operation at a time, the reference's result at index (r, c) is the contraction of row r of the input with
  row c of the weights (both operands contracted along their second axis) plus the bias, which two broadcasts carry
  from a vector of length 4096 first to a row and then to every row of the matrix: entry (r, c) of that broadcast
  is bias entry c. That is the specification's `linear`, entry by entry.
-/
import proofs.«115381_j21251498180722_1_alg».proof.Proof.Gen.ReferenceIdeal.Read
import proofs.«115381_j21251498180722_1_alg».proof.Proof.LinearSpec

noncomputable section

namespace Cert.ReferenceIdeal.RefValue

open Cert.ReferenceIdeal Cert.ReferenceIdeal.Read Idealize.ShloMosaic Idealize.ShloMosaic.ValueIdx Cert.LinearSpec
open scoped BigOperators

/-- The left operand of the contraction is read at (r, k). -/
theorem left_index (i : S4096x4096.Idx) (k : Fin 4096) : lidx_main_v0 i k = ix2 (i 0) k :=
  funext fun a => Fin.ext (by match a with | ⟨0, _⟩ => rfl | ⟨1, _⟩ => rfl)

/-- The right operand of the contraction is read at (c, k): the weights are contracted along their second axis. -/
theorem right_index (i : S4096x4096.Idx) (k : Fin 4096) : ridx_main_v0 i k = ix2 (i 1) k :=
  funext fun a => Fin.ext (by match a with | ⟨0, _⟩ => rfl | ⟨1, _⟩ => rfl)

/-- Through the two broadcasts, entry (r, c) reads bias entry c. -/
theorem bias_index (i : S4096x4096.Idx) : idx_main_v1 (idx_main_v2 i) = ix1 (i 1) :=
  funext fun a => Fin.ext (by match a with | ⟨0, _⟩ => rfl)

/-- The reference's result is the linear layer of its three arguments. -/
theorem reference_is_linear (x w : (⟨S4096x4096, .f32⟩ : BufTy).Contents (Elt Ideal))
    (b : (⟨S4096, .f32⟩ : BufTy).Contents (Elt Ideal)) :
    val_main_v3 (F := Ideal) x w b = linear x w b := by
  funext i
  rw [val_main_v3_apply, val_main_v0_apply, val_main_v2_apply, val_main_v1_apply]
  simp only [left_index, right_index, bias_index]
  rfl

end Cert.ReferenceIdeal.RefValue

end
-- ==== Proof.lean ====
/-
  A linear layer, tile by tile, against the same layer as one matrix product.

  Both programs take a 4096 x 4096 input matrix x, a 4096 x 4096 weight matrix W and a bias vector b of length 4096.
  Over the extended reals both end with the array whose entry (r, c) is the dot product of row r of x with row c of
  W, plus b c:
  * the reference contracts the two matrices along their second axes in one product and adds the bias, broadcast
    down the rows;
  * the kernel cuts rows, columns and the contraction axis into four stretches of 1024 each; for every tile of the
    result it starts an accumulator at zero, adds the four partial dot products one stretch after the other, adds the
    bias, and writes the tile back. Narrowing the operands to a shorter float format before the product is the
    identity on extended reals.
  The two agree because a sum over 4096 terms is the sum over the four stretches of the sums inside each: a
  regrouping of a finite sum in a commutative monoid, which needs no finiteness of the inputs. The kernel's
  idealization rewrote no operation, so that it preserves the kernel is immediate.
-/
import proofs.«115381_j21251498180722_1_alg».proof.Defs
import proofs.«115381_j21251498180722_1_alg».proof.Proof.Gen.Kernel
import proofs.«115381_j21251498180722_1_alg».proof.Proof.Gen.Kernel.Skeleton
import proofs.«115381_j21251498180722_1_alg».proof.Proof.Gen.Kernel.Launch
import proofs.«115381_j21251498180722_1_alg».proof.Proof.Gen.Kernel.Points
import proofs.«115381_j21251498180722_1_alg».proof.Proof.Gen.Kernel.Frame
import proofs.«115381_j21251498180722_1_alg».proof.Proof.Gen.KernelIdeal
import proofs.«115381_j21251498180722_1_alg».proof.Proof.Gen.KernelIdeal.Skeleton
import proofs.«115381_j21251498180722_1_alg».proof.Proof.Gen.KernelIdeal.Launch
import proofs.«115381_j21251498180722_1_alg».proof.Proof.Gen.KernelIdeal.Points
import proofs.«115381_j21251498180722_1_alg».proof.Proof.Gen.KernelIdeal.Frame
import proofs.«115381_j21251498180722_1_alg».proof.Proof.Gen.ReferenceIdeal
import proofs.«115381_j21251498180722_1_alg».proof.Proof.Gen.Pre_finite_inputs
import proofs.«115381_j21251498180722_1_alg».proof.Proof.Gen.KernelIdeal.Value
import proofs.«115381_j21251498180722_1_alg».proof.Proof.Gen.ReferenceIdeal.Run
import proofs.«115381_j21251498180722_1_alg».proof.Proof.Gen.ReferenceIdeal.Read
import proofs.«115381_j21251498180722_1_alg».proof.Proof.KernelValue
import proofs.«115381_j21251498180722_1_alg».proof.Proof.RefValue
import Idealize.ShloMosaic.Adequacy
import Idealize.ShloMosaic.Init

noncomputable section

namespace Cert.Proof

open Idealize.ShloMosaic Idealize.SL.Sem

/-- The kernel runs and leaves its arguments as they were. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and leaves its arguments as they were: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the three arguments, the kernel's result array and the reference's are both the
    linear layer of those arguments. -/
theorem algebraic : Cert.algebraic_KernelIdeal_ReferenceIdeal := by
  intro m ρ m' ρ' _ hagree
  refine ⟨_, Cert.KernelIdeal.TileValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.reference_is_linear,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
